-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x4096 : Shape := ⟨2, ![16384, 4096]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S16384 .f32) (main_arg1 : FVec F S16384x4096 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384 : Shape := ⟨1, ![16384]⟩
abbrev S16384x4096 : Shape := ⟨2, ![16384, 4096]⟩
abbrev S16384x1 : Shape := ⟨2, ![16384, 1]⟩
abbrev S512x1 : Shape := ⟨2, ![512, 1]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S16384, .f32⟩
  | .hbm, ⟨1, _⟩ => ⟨S16384x4096, .f32⟩
  | .hbm, ⟨2, _⟩ => ⟨S16384x1, .f32⟩
  | .hbm, ⟨3, _⟩ => ⟨S16384x4096, .f32⟩
  | .local _ .vmem, ⟨0, _⟩ => ⟨S512x1, .f32⟩
  | .local _ .vmem, ⟨1, _⟩ => ⟨S512x1, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384_S16384x1 : S16384.ShapeCasts S16384x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  inb_S512x4096_S512x4096_0_0 : ∀ a, (![0, 0] : Fin 2 → Nat) a + S512x4096.size a ≤ S512x4096.size a
  h_S512x4096 : 0 < S512x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S16384x1.size a
  hwx0_0 : ∀ i : grid0.Coords, EltTy.bits .f32 = 32 ∨ (Rect.block (s := S16384x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_call0_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384 : Shape := ⟨1, ![16384]⟩
abbrev S16384x4096 : Shape := ⟨2, ![16384, 4096]⟩
abbrev S16384x1 : Shape := ⟨2, ![16384, 1]⟩

abbrev nBuf : Space → Nat
  | .hbm => 5
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384x4096, .f32⟩
  | .hbm, ⟨2, _⟩ => ⟨S16384x1, .f32⟩
  | .hbm, ⟨3, _⟩ => ⟨S16384x4096, .f32⟩
  | .hbm, ⟨4, _⟩ => ⟨S16384x4096, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)

variable [Facts₀]

class Facts : Prop extends Facts₀ where

variable [Facts]
-- ==== Proof.RowScale.lean ====
/-
  Scaling the rows of a matrix by a vector: for a vector `a` of 16384 entries and a 16384 × 4096 matrix `b`, entry
  (r, c) of the result is `a r · b (r, c)` — the product `diag(a) · b` written out. This is the one function both
  programs compute, and it is stated here once, index by index, over the literal shapes, for any float instance: the
  product is formed with the same two factors in the same order on both sides, so no law of arithmetic is needed and
  the inputs' finiteness plays no part.

  Beside it, the one layout fact both sides lean on: a vector of n entries recast as an n × 1 column holds at (r, 0)
  the vector's entry r.
-/
import Idealize.ShloMosaic.Lib.ValueIdx
import Idealize.ShloMosaic.Lib.Pipeline.Value

noncomputable section

namespace Cert.RowScale

open Idealize.ShloMosaic Idealize.ShloMosaic.ValueIdx

variable {F : FTy → Type} [FloatOps F]

/-- The vector's shape, the column's and the matrix's. -/
abbrev SVec : Shape := ⟨1, ![16384]⟩
abbrev SCol : Shape := ⟨2, ![16384, 1]⟩
abbrev SMat : Shape := ⟨2, ![16384, 4096]⟩

/-- The row a matrix entry lies in, as an index of the vector. -/
abbrev rowOf (i : SMat.Idx) : SVec.Idx := ix1 (⟨(i 0).val, (i 0).isLt⟩ : Fin 16384)

/-- The matrix with row r scaled by the vector's entry r. -/
def scaled (a : SVec.Idx → Elt F .f32) (b : SMat.Idx → Elt F .f32) : SMat.Idx → Elt F .f32 :=
  fun i => FloatOps.mulf (a (rowOf i)) (b i)

theorem scaled_apply (a : SVec.Idx → Elt F .f32) (b : SMat.Idx → Elt F .f32) (i : SMat.Idx) :
    scaled a b i = FloatOps.mulf (a (rowOf i)) (b i) := rfl

/-- A vector recast as a column: the column's entry (r, 0) is the vector's entry r (the two have the same place in
    row-major order: r · 1 + 0 = r). -/
theorem column_apply {α : Type} (x : SVec.Idx → α) (h : SVec.ShapeCasts SCol) (j : SCol.Idx) :
    shapeCast SCol x h j = x (ix1 (⟨(j 0).val, (j 0).isLt⟩ : Fin 16384)) := by
  refine shapeCast_apply x h j _ ?_
  have h1 : (j 1).val = 0 := by have := (j 1).isLt; simp at this; omega
  rw [Shape.rowMajor_val_one, Shape.rowMajor_val_two]
  show (j 0).val = (j 0).val * 1 + (j 1).val
  omega

end Cert.RowScale

end
-- ==== Proof.RefScaled.lean ====
/-
  The reference's result is the row-scaled matrix. The reference spreads the vector over a column (entry (r, 0) is
  `a r`), spreads the column over the matrix's width (entry (r, c) is the column's (r, 0)) and multiplies by the matrix
  entry by entry: at (r, c) that is `a r · b (r, c)`.
-/
import proofs.«130528_j84172769067597_1_alg».proof.Proof.Gen.ReferenceIdeal.Read
import proofs.«130528_j84172769067597_1_alg».proof.Proof.RowScale

noncomputable section

namespace Cert.ReferenceIdeal.Scaled

open Cert.ReferenceIdeal Cert.ReferenceIdeal.Gen Cert.ReferenceIdeal.Read Idealize.ShloMosaic Idealize.ShloMosaic.ValueIdx
open Cert.RowScale

variable {F : FTy → Type} [FloatOps F]

/-- Reading the two spreadings back lands on the entry's row. -/
theorem row_of_entry (i : S16384x4096.Idx) : idx_main_v0 (idx_main_v1 i) = rowOf i := by
  funext a; match a with | ⟨0, _⟩ => rfl

/-- The term the reference's run ends at is the row-scaled matrix of its two arguments. -/
theorem result_eq (a : (⟨S16384, .f32⟩ : BufTy).Contents (Elt F)) (b : (⟨S16384x4096, .f32⟩ : BufTy).Contents (Elt F)) :
    mulf (broadcastInDim S16384x4096 ![0, 1] bcast_S16384x1_S16384x4096_0_1 (broadcastInDim S16384x1 ![0] bcast_S16384_S16384x1_0 a)) b
      = scaled (F := F) a b := by
  rw [val_main_v2_eq]
  funext i
  rw [val_main_v2_apply, val_main_v1_apply, val_main_v0_apply, row_of_entry]
  rfl

end Cert.ReferenceIdeal.Scaled

end
-- ==== Proof.KernelScaled.lean ====
/-
  The kernel's result is the row-scaled matrix. The grid has 32 points; point t works on rows 512·t … 512·t + 511:
  it takes those 512 entries of the column (the vector recast as 16384 × 1 before the launch) and those 512 rows of the
  matrix, spreads the column block over the 4096 lanes, multiplies entry by entry and writes the 512 × 4096 block back
  to the same rows of the result. So entry (p, q) of the block point t writes is `a (512·t + p) · b (512·t + p, q)`,
  which is the row-scaled matrix read through that block; the 32 blocks tile the 16384 rows, so the whole result
  array ends as the row-scaled matrix.
-/
import proofs.«130528_j84172769067597_1_alg».proof.Proof.Gen.KernelIdeal.Value
import proofs.«130528_j84172769067597_1_alg».proof.Proof.RowScale

noncomputable section

namespace Cert.KernelIdeal.Scaled

open Cert.KernelIdeal Cert.KernelIdeal.Gen Idealize.ShloMosaic Idealize.ShloMosaic.TcCoe Idealize.SL.Sem
open Idealize.ShloMosaic.ValueIdx Cert.RowScale
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-! ## One point's block -/

/-- What the body leaves in the output block, entry by entry: the column block's entry (p, 0) times the matrix
    block's entry (p, q). -/
theorem block_apply (x0 : Vec F S512x1 .f32) (x1 : Vec F S512x4096 .f32) (p : Fin 512) (q : Fin 4096) :
    out0_2 x0 x1 (ix2 p q) = FloatOps.mulf (x0 (ix2 p (0 : Fin 1))) (x1 (ix2 p q)) := by
  unfold out0_2
  rw [Cert.KernelIdeal.Value.canon2_eq]
  show FloatOps.mulf (View.ld x0 r0_0 (Cert.KernelIdeal.Value.ix2_0 (ix2 p q))) (View.ld x1 r0_1 (Cert.KernelIdeal.Value.ix2_1 (ix2 p q))) = _
  rw [View.ld_unit_zero (S := S512x1) zero_offsets, View.ld_unit_zero (S := S512x4096) zero_offsets]
  congr 2 <;> (funext a; match a with | ⟨0, _⟩ => rfl | ⟨1, _⟩ => rfl)

/-! ## The arrays the region finds -/

/-- The column the region finds is the vector argument recast. -/
theorem column_eq (c : Dev nD) :
    (V m c main_call0_v0 : S16384x1.Idx → Elt F .f32) = shapeCast S16384x1 (m ((c : Thread nD τ).loc main_arg0)) shapeCasts_S16384_S16384x1 := by
  dsimp only [Gen.V, Gen.hostOps0]; after_results; rfl

/-! ## The index maps -/

/-- All three windows move together down the rows: at point t each has block index (t, 0), decided over the grid. -/
theorem index_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) ≤ 31
    ∧ win0_2.index t (1 : Fin 2) = 0 :=
  (by decide +kernel : ∀ t : Fin grid0.N, _)

/-- Every block of rows is some point's. -/
theorem index_onto : ∀ (q0 : Fin 32), ∃ t : Fin cfg0.N, win0_2.index t = ![q0.val, 0] :=
  (by decide +kernel : ∀ (q0 : Fin 32), ∃ t : Fin grid0.N, win0_2.index t = ![q0.val, 0])

/-! ## What a point writes back -/

/-- Point t writes back block t of the row-scaled matrix of the two arguments. -/
theorem flushed_eq (c : Dev nD) (t : Fin cfg0.N) :
    (dats m 0 c).flushed 2 t
      = ((cfg0.win 2).blk t).view.read (Elt F) (scaled (m ((c : Thread nD τ).loc main_arg0)) (m ((c : Thread nD τ).loc main_arg1))) := by
  rw [Cert.KernelIdeal.Value.flushed2]
  obtain ⟨e0, e1, e2, e3, e4, e5⟩ := index_facts t
  funext j
  obtain ⟨p, q, rfl⟩ : ∃ (p : Fin 512) (q : Fin 4096), j = ix2 p q := ⟨j 0, j 1, eq_ix2 j⟩
  show out0_2 (iblk m c 0 t) (iblk m c 1 t) (ix2 p q) = _
  refine (block_apply (iblk m c 0 t) (iblk m c 1 t) p q).trans ?_
  show FloatOps.mulf (V m c main_call0_v0 (((cfg0.win 0).blk t).view.emb (ix2 p (0 : Fin 1))))
      (V m c main_arg1 (((cfg0.win 1).blk t).view.emb (ix2 p q)))
    = FloatOps.mulf (m ((c : Thread nD τ).loc main_arg0) (rowOf (((cfg0.win 2).blk t).view.emb (ix2 p q))))
      (m ((c : Thread nD τ).loc main_arg1) (((cfg0.win 2).blk t).view.emb (ix2 p q)))
  have hrow : V m c main_call0_v0 (((cfg0.win 0).blk t).view.emb (ix2 p (0 : Fin 1)))
      = m ((c : Thread nD τ).loc main_arg0) (rowOf (((cfg0.win 2).blk t).view.emb (ix2 p q))) := by
    rw [column_eq, column_apply]
    refine congrArg (m ((c : Thread nD τ).loc main_arg0)) ?_
    funext a; apply Fin.ext
    match a with
    | ⟨0, _⟩ => show win0_0.index t (0 : Fin 2) * 512 + 1 * p.val = win0_2.index t (0 : Fin 2) * 512 + 1 * p.val; omega
  have hmat : ((cfg0.win 1).blk t).view.emb (ix2 p q) = ((cfg0.win 2).blk t).view.emb (ix2 p q) := by
    funext a; apply Fin.ext
    match a with
    | ⟨0, _⟩ => show win0_1.index t (0 : Fin 2) * 512 + 1 * p.val = win0_2.index t (0 : Fin 2) * 512 + 1 * p.val; omega
    | ⟨1, _⟩ => show win0_1.index t (1 : Fin 2) * 4096 + 1 * q.val = win0_2.index t (1 : Fin 2) * 4096 + 1 * q.val; omega
  rw [hrow, hmat, V_main_arg1]

/-! ## The blocks tile the rows -/

/-- An entry of the result lies in point t's block when each coordinate is in the block's range on its axis. -/
theorem mem_block (t : Fin cfg0.N) (i : S16384x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v0).slice (win0_2.rect t)).set ↔ _
  rw [View.set_slice_whole, Rect.mem_set_unit]
  exact Iff.rfl

/-- Every entry lies in some point's block: row r in the block of the point whose block index is r / 512. -/
theorem covered (i : S16384x4096.Idx) : ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := index_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-! ## The whole array, and the run -/

/-- After the 32 points the result array is the row-scaled matrix of the two arguments. -/
theorem final (c : Dev nD) :
    (dats m 0 c).arrAt 2 cfg0.N = scaled (m ((c : Thread nD τ).loc main_arg0)) (m ((c : Thread nD τ).loc main_arg1)) :=
  (dats m 0 c).arrAt_eq_of_cover 2 _ (fun t _ => flushed_eq m c t) covered

/-- Every weakly fair execution of the kernel's program terminates with the result array at the row-scaled matrix of
    the arguments and the arguments unchanged. -/
theorem run : θ_run defs (onTc (τ := τ) (main (F := F))) ⟨m, fun _ => 0, ρ⟩ fun r => ∀ c : Dev nD,
      r.2.mem ((c : Thread nD τ).loc main_v0) = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Scaled

end
-- ==== Proof.lean ====
/-
  The certificate of the row-scaling kernel: C = diag(A) · B, that is C (r, c) = A r · B (r, c), for A of 16384 entries
  and B of 16384 × 4096.

  The kernel recasts A as a 16384 × 1 column and runs 32 grid points, point t multiplying rows 512·t … 512·t + 511 of B
  by the matching 512 entries of the column spread over the 4096 lanes; the reference spreads A over a column and then
  over the matrix's width and multiplies by B entry by entry. Both results are the one function `Cert.RowScale.scaled`
  of the two arguments: the same two factors in the same order at every entry, so the equality of the results needs no
  law of extended-real arithmetic and the finiteness of the inputs is never used.

  The three frames are the generated ones (the reference's is its generated run with the result dropped); the
  idealization rewrote nothing, so `preserves` is trivial; the value claim puts the kernel's run (the result array as
  the row-scaled matrix, from the 32 blocks tiling the rows) beside the reference's run (its composed term read entry
  by entry), both over arguments that agree.
-/
import proofs.«130528_j84172769067597_1_alg».proof.Defs
import proofs.«130528_j84172769067597_1_alg».proof.Proof.Gen.Kernel
import proofs.«130528_j84172769067597_1_alg».proof.Proof.Gen.Kernel.Skeleton
import proofs.«130528_j84172769067597_1_alg».proof.Proof.Gen.Kernel.Launch
import proofs.«130528_j84172769067597_1_alg».proof.Proof.Gen.Kernel.Points
import proofs.«130528_j84172769067597_1_alg».proof.Proof.Gen.Kernel.Frame
import proofs.«130528_j84172769067597_1_alg».proof.Proof.Gen.KernelIdeal
import proofs.«130528_j84172769067597_1_alg».proof.Proof.Gen.KernelIdeal.Skeleton
import proofs.«130528_j84172769067597_1_alg».proof.Proof.Gen.KernelIdeal.Launch
import proofs.«130528_j84172769067597_1_alg».proof.Proof.Gen.KernelIdeal.Points
import proofs.«130528_j84172769067597_1_alg».proof.Proof.Gen.KernelIdeal.Frame
import proofs.«130528_j84172769067597_1_alg».proof.Proof.Gen.ReferenceIdeal
import proofs.«130528_j84172769067597_1_alg».proof.Proof.Gen.Pre_finite_inputs
import proofs.«130528_j84172769067597_1_alg».proof.Proof.Gen.KernelIdeal.Value
import proofs.«130528_j84172769067597_1_alg».proof.Proof.Gen.ReferenceIdeal.Run
import proofs.«130528_j84172769067597_1_alg».proof.Proof.Gen.ReferenceIdeal.Read
import proofs.«130528_j84172769067597_1_alg».proof.Proof.RowScale
import proofs.«130528_j84172769067597_1_alg».proof.Proof.RefScaled
import proofs.«130528_j84172769067597_1_alg».proof.Proof.KernelScaled
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is three host operations: its run, with what it says of the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Over the extended reals both programs end with the row-scaled matrix of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Scaled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Scaled.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
